-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S10000x512 : Shape := ⟨2, ![10000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x512 .f32) (main_arg1 : IVec S16384 32) (main_arg2 : FVec F S10000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 10000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x512 : Shape := ⟨2, ![16384, 512]⟩
abbrev S16384 : Shape := ⟨1, ![16384]⟩
abbrev S10000x512 : Shape := ⟨2, ![10000, 512]⟩
abbrev S_ : Shape := ⟨0, ![]⟩
abbrev S10112x512 : Shape := ⟨2, ![10112, 512]⟩
abbrev S10000 : Shape := ⟨1, ![10000]⟩
abbrev S16384x1 : Shape := ⟨2, ![16384, 1]⟩
abbrev S256x512 : Shape := ⟨2, ![256, 512]⟩
abbrev S256 : Shape := ⟨1, ![256]⟩
abbrev S256x10112 : Shape := ⟨2, ![256, 10112]⟩
abbrev S256x1 : Shape := ⟨2, ![256, 1]⟩

abbrev nBuf : Space → Nat
  | .hbm => 34
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S10000x512, .f32⟩
  | .hbm, ⟨3, _⟩ => ⟨S_, .i32⟩
  | .hbm, ⟨4, _⟩ => ⟨S_, .f32⟩
  | .hbm, ⟨5, _⟩ => ⟨S10112x512, .f32⟩
  | .hbm, ⟨6, _⟩ => ⟨S10112x512, .bf16⟩
  | .hbm, ⟨7, _⟩ => ⟨S_, .f32⟩
  | .hbm, ⟨8, _⟩ => ⟨S10000, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S_, .f32⟩
  | .hbm, ⟨18, _⟩ => ⟨S16384, .f32⟩
  | .hbm, ⟨19, _⟩ => ⟨S10000, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256, .i32⟩
  | .local _ .vmem, ⟨3, _⟩ => ⟨S256, .i32⟩
  | .local _ .vmem, ⟨4, _⟩ => ⟨S256, .f32⟩
  | .local _ .vmem, ⟨5, _⟩ => ⟨S256, .f32⟩
  | .local _ .vmem, ⟨6, _⟩ => ⟨S10112x512, .bf16⟩
  | .local _ .vmem, ⟨7, _⟩ => ⟨S256, .f32⟩
  | .local _ .vmem, ⟨8, _⟩ => ⟨S256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10112x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S10000x512_S10112x512_01120_000 : S10000x512.Pads (![0, 0] : Fin 2 → Nat) ![112, 0] ![0, 0] S10112x512
  h_S_ : 0 < S_.numel
  bitsLt_bf16_f32 : FTy.bits .bf16 < FTy.bits .f32
  bcast_S_S10000 : S_.BroadcastsInDim S10000 (![] : Fin 0 → Fin S10000.rank)
  bcast_S_S16384 : S_.BroadcastsInDim S16384 (![] : Fin 0 → Fin S16384.rank)
  bcast_S16384_S16384x1_0 : S16384.BroadcastsInDim S16384x1 (![0] : Fin 1 → Fin S16384x1.rank)
  inb_S256_S256_0 : ∀ a, (![0] : Fin 1 → Nat) a + S256.size a ≤ S256.size a
  h_S256 : 0 < S256.numel
  iota_S256x10112_d1_w32 : S256x10112.Iotas .tc 32 [1]
  shapeCasts_S256_S256x1 : S256.ShapeCasts S256x1
  broadcasts_S256x1_S256x10112 : S256x1.Broadcasts S256x10112
  natLt_1_32 : 1 < 32
  inb_S10112x512_S10112x512_0_0 : ∀ a, (![0, 0] : Fin 2 → Nat) a + S10112x512.size a ≤ S10112x512.size a
  h_S10112x512 : 0 < S10112x512.numel
  shapeCasts_S10112x512_S10112x512 : S10112x512.ShapeCasts S10112x512
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256 : S256.ShapeCasts S256
  reducesTo_S16384_S_d0 : S16384.ReducesTo [0] S_
  scatter_S10000_S16384x1_S16384_n_0_0_1_wf : ScatterDims.WF S10000 S16384x1 S16384 [] [0] [0] 1
  gather_S10000_S16384x1_S16384_n_0_n_n_0_1_1_wf : GatherDims.WF S10000 S16384x1 S16384 [] [0] [] [0] [] 1 ![1]
  dot_S256x10112_S10112x512_S256x512_1_0_0_1_n_n_wf : DotDims.WF S256x10112 S10112x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S16384.size a
  hwx0_1 : ∀ i : grid0.Coords, EltTy.bits .i32 = 32 ∨ (Rect.block (s := S16384) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10112x512.size a ≤ S10112x512.size a
  hwx0_3 : ∀ i : grid0.Coords, EltTy.bits .bf16 = 32 ∨ (Rect.block (s := S10112x512) S10112x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S16384.size a
  hwx0_4 : ∀ i : grid0.Coords, EltTy.bits .f32 = 32 ∨ (Rect.block (s := S16384) S256.size (cc0_transform_4 i) (hinb0_4 i)).WholeWords (EltTy.packing .f32)

variable [Facts₀]

def scatter_S10000_S16384x1_S16384_n_0_0_1 : ScatterDims S10000 S16384x1 S16384 where
  updateWindowDims := []
  insertedWindowDims := [0]
  scatterDimsToOperandDims := [0]
  indexVectorDim := 1
  wf := scatter_S10000_S16384x1_S16384_n_0_0_1_wf
def gather_S10000_S16384x1_S16384_n_0_n_n_0_1_1 : GatherDims S10000 S16384x1 S16384 where
  offsetDims := []
  collapsedSliceDims := [0]
  operandBatchingDims := []
  startIndicesBatchingDims := []
  startIndexMap := [0]
  indexVectorDim := 1
  sliceSizes := ![1]
  wf := gather_S10000_S16384x1_S16384_n_0_n_n_0_1_1_wf
def dot_S256x10112_S10112x512_S256x512_1_0_0_1_n_n : DotDims S256x10112 S10112x512 S256x512 where
  lhsContracting := [1]
  rhsContracting := [0]
  lhsNonContracting := [0]
  rhsNonContracting := [1]
  lhsBatch := []
  rhsBatch := []
  wf := dot_S256x10112_S10112x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10112x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S10000x512 : Shape := ⟨2, ![10000, 512]⟩
abbrev S_ : Shape := ⟨0, ![]⟩
abbrev S16384x1 : Shape := ⟨2, ![16384, 1]⟩
abbrev S10000 : Shape := ⟨1, ![10000]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S10000x512, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x512, .f32⟩
  | .hbm, ⟨12, _⟩ => ⟨S_, .f32⟩
  | .hbm, ⟨13, _⟩ => ⟨S10000, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S_, .f32⟩
  | .hbm, ⟨23, _⟩ => ⟨S16384, .f32⟩
  | .hbm, ⟨24, _⟩ => ⟨S10000, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S10000 : S_.BroadcastsInDim S10000 (![] : Fin 0 → Fin S10000.rank)
  reducesTo_S16384x512_S16384_d1 : S16384x512.ReducesTo [1] S16384
  h_S_ : 0 < S_.numel
  reducesTo_S16384_S_d0 : S16384.ReducesTo [0] S_
  gather_S10000x512_S16384x1_S16384x512_1_0_n_n_0_1_1512_wf : GatherDims.WF S10000x512 S16384x1 S16384x512 [1] [0] [] [0] [] 1 ![1, 512]
  scatter_S10000_S16384x1_S16384_n_0_0_1_wf : ScatterDims.WF S10000 S16384x1 S16384 [] [0] [0] 1
  gather_S10000_S16384x1_S16384_n_0_n_n_0_1_1_wf : GatherDims.WF S10000 S16384x1 S16384 [] [0] [] [0] [] 1 ![1]

variable [Facts₀]

def gather_S10000x512_S16384x1_S16384x512_1_0_n_n_0_1_1512 : GatherDims S10000x512 S16384x1 S16384x512 where
  offsetDims := [1]
  collapsedSliceDims := [0]
  operandBatchingDims := []
  startIndicesBatchingDims := []
  startIndexMap := [0]
  indexVectorDim := 1
  sliceSizes := ![1, 512]
  wf := gather_S10000x512_S16384x1_S16384x512_1_0_n_n_0_1_1512_wf
def scatter_S10000_S16384x1_S16384_n_0_0_1 : ScatterDims S10000 S16384x1 S16384 where
  updateWindowDims := []
  insertedWindowDims := [0]
  scatterDimsToOperandDims := [0]
  indexVectorDim := 1
  wf := scatter_S10000_S16384x1_S16384_n_0_0_1_wf
def gather_S10000_S16384x1_S16384_n_0_n_n_0_1_1 : GatherDims S10000 S16384x1 S16384 where
  offsetDims := []
  collapsedSliceDims := [0]
  operandBatchingDims := []
  startIndicesBatchingDims := []
  startIndexMap := [0]
  indexVectorDim := 1
  sliceSizes := ![1]
  wf := gather_S10000_S16384x1_S16384_n_0_n_n_0_1_1_wf

class Facts : Prop extends Facts₀ where

variable [Facts]
-- ==== Proof.OneHot.lean ====
/-
  A one-hot row selects a table row.

  For a label word ℓ the weight of class k is the comparison "k = ℓ" as a bit, widened to a word and read as a signed
  integer: 1 when ℓ is the word of k, 0 otherwise. Multiplying the rows p k of a table by these weights and summing over
  the classes k < N leaves the one row p n whose class is the label: every other term is 0 · p k = 0, which holds on
  the extended reals whatever p k is (an infinity included), and the remaining term is 1 · p n.
-/
import Idealize.ShloMosaic.PureOps.Ideal.Laws
import Idealize.ShloMosaic.Lib.ValueIdx
import Idealize.ShloMosaic.Lib.StableHlo.Predicate

noncomputable section

open scoped BigOperators

namespace Cert.CenterDist

open Idealize.ShloMosaic Idealize.ShloMosaic.ValueIdx

/-- The weight of class `k` for the label word `ℓ`: the bit of "k = ℓ", widened and read as a signed integer. -/
def weight (ℓ : BitVec 32) (k : Nat) : EReal :=
  ((((IntOp.cmpi .eq (BitVec.ofNat 32 k) ℓ).setWidth 32).toInt : ℝ) : EReal)

/-- The label's own class weighs 1. -/
theorem weight_of_eq (ℓ : BitVec 32) (k : Nat) (h : BitVec.ofNat 32 k = ℓ) : weight ℓ k = 1 := by
  unfold weight
  rw [StableHlo.Predicate.cmpi_eq_iff.mpr h]
  norm_num

/-- Every other class weighs 0. -/
theorem weight_of_ne (ℓ : BitVec 32) (k : Nat) (h : BitVec.ofNat 32 k ≠ ℓ) : weight ℓ k = 0 := by
  unfold weight
  rw [eq_zero_of_ne_one (fun h1 => h (StableHlo.Predicate.cmpi_eq_iff.mp h1))]
  norm_num

/-- Two classes below 2³² with one word are one class. -/
theorem ofNat_inj_of_lt {a b : Nat} (ha : a < 2 ^ 32) (hb : b < 2 ^ 32) (h : BitVec.ofNat 32 a = BitVec.ofNat 32 b) : a = b := by
  have := congrArg BitVec.toNat h
  simp only [BitVec.toNat_ofNat] at this
  rwa [Nat.mod_eq_of_lt ha, Nat.mod_eq_of_lt hb] at this

/-- THE SELECTION: the weighted sum of the rows `p k` over the classes is the row of the label's class. -/
theorem sum_weight_mul {N : Nat} (hN : N ≤ 2 ^ 32) (ℓ : BitVec 32) (n : Fin N) (hℓ : ℓ = BitVec.ofNat 32 n.val)
    (p : Fin N → EReal) : ∑ k : Fin N, weight ℓ k.val * p k = p n := by
  rw [Finset.sum_eq_single n]
  · rw [weight_of_eq _ _ hℓ.symm, one_mul]
  · intro k _ hk
    rw [weight_of_ne, zero_mul]
    intro h
    rw [hℓ] at h
    exact hk (Fin.ext (ofNat_inj_of_lt (by have := k.isLt; omega) (by have := n.isLt; omega) h))
  · intro h
    exact absurd (Finset.mem_univ n) h

end Cert.CenterDist

end
-- ==== Proof.Sample.lean ====
/-
  One sample's share of the loss, as a function of the arrays.

  For sample e with label word ℓ = label[e] the class row is centers[cls ℓ], where cls ℓ is ℓ read as a signed integer
  and clamped into [0, 9999]; the distance is the square root of the sum over the 512 features d of
  (feat[e, d] − centers[cls ℓ, d])², and the sample's share is that distance divided by num[e], the number of samples
  carrying the same label. A label that is a class number is its own class (`cls_val`, `cls_word`), and the index
  arithmetic that wraps a negative label around leaves it alone (`wrap_of_nonneg`).
-/
import proofs.«409294_j81123342287605_1_alg».proof.Proof.OneHot
import Idealize.ShloMosaic.Lib.Affine

noncomputable section

open scoped BigOperators

namespace Cert.CenterDist

open Idealize.ShloMosaic Idealize.ShloMosaic.ValueIdx

/-- The class a label word names: its signed value clamped into [0, 9999]. -/
def cls (w : BitVec 32) : Fin 10000 := ⟨min w.toInt.toNat (10000 - 1), by omega⟩

/-- A label in [0, 10000) is its own class … -/
theorem cls_val (w : BitVec 32) (h0 : 0 ≤ w.toInt) (h1 : w.toInt < 10000) : (cls w).val = w.toInt.toNat := by
  show min w.toInt.toNat (10000 - 1) = _
  omega

/-- … and is the word of that class. -/
theorem cls_word (w : BitVec 32) (h0 : 0 ≤ w.toInt) (h1 : w.toInt < 10000) : w = BitVec.ofNat 32 (cls w).val := by
  rw [cls_val w h0 h1]
  apply BitVec.eq_of_toNat_eq
  rw [BitVec.toNat_ofNat]
  have hlt := w.isLt
  have : w.toInt = w.toNat := by
    rw [BitVec.toInt_eq_toNat_cond] at h0 h1 ⊢
    split at h0 <;> split <;> omega
  rw [this, Int.toNat_natCast, Nat.mod_eq_of_lt hlt]

/-- The wrap-around of a negative index (add the extent where the index is below zero) leaves a non-negative word alone. -/
theorem wrap_of_nonneg (w z n : BitVec 32) (hz : z = 0#32) (h0 : 0 ≤ w.toInt) :
    Scalar.select (IntOp.cmpi .slt w z) (IntOp.addi w n) w = w := by
  subst hz
  have : IntOp.cmpi .slt w 0#32 = 0#1 :=
    eq_zero_of_ne_one (fun h => by have := IntOp.cmpi_slt.mp h; simp at this; omega)
  rw [this, select_zero]

/-- THE SAMPLE'S SHARE: distance of the sample's features from its class row, over the count of its label. -/
def sample (feat : (⟨2, ![16384, 512]⟩ : Shape).Idx → EReal) (lab : IVec ⟨1, ![16384]⟩ 32)
    (cen : (⟨2, ![10000, 512]⟩ : Shape).Idx → EReal) (num : (⟨1, ![16384]⟩ : Shape).Idx → EReal) (e : Fin 16384) : EReal :=
  Ideal.div (Ideal.sqrt (∑ d : Fin 512,
      (feat (ix2 e d) - cen (ix2 (cls (lab (ix1 e))) d)) * (feat (ix2 e d) - cen (ix2 (cls (lab (ix1 e))) d))))
    (num (ix1 e))

/-- THE SAME SHARE AS THE KERNEL SPELLS IT: the class row is not looked up but selected, as the sum over the 10112 rows
    k of a padded table of the weight of class k for the label times row k. -/
def rowVal (feat : (⟨2, ![16384, 512]⟩ : Shape).Idx → EReal) (lab : IVec ⟨1, ![16384]⟩ 32)
    (tab : (⟨2, ![10112, 512]⟩ : Shape).Idx → EReal) (num : (⟨1, ![16384]⟩ : Shape).Idx → EReal) (e : Fin 16384) : EReal :=
  Ideal.div (Ideal.sqrt (∑ d : Fin 512,
      (feat (ix2 e d) - ∑ k : Fin 10112, weight (lab (ix1 e)) k.val * tab (ix2 k d))
        * (feat (ix2 e d) - ∑ k : Fin 10112, weight (lab (ix1 e)) k.val * tab (ix2 k d))))
    (num (ix1 e))

/-- Where the label is a class number and the padded table's first 10000 rows are the centers, the selected row is the
    class row, so the two spellings agree: the weights pick out row `cls label` (`sum_weight_mul`), which lies among the
    first 10000 rows; what the padding rows hold does not matter, each being multiplied by 0. -/
theorem rowVal_eq_sample (feat : (⟨2, ![16384, 512]⟩ : Shape).Idx → EReal) (lab : IVec ⟨1, ![16384]⟩ 32)
    (tab : (⟨2, ![10112, 512]⟩ : Shape).Idx → EReal) (cen : (⟨2, ![10000, 512]⟩ : Shape).Idx → EReal)
    (num : (⟨1, ![16384]⟩ : Shape).Idx → EReal)
    (htab : ∀ (k : Fin 10000) (d : Fin 512), tab (ix2 ⟨k.val, by omega⟩ d) = cen (ix2 k d))
    (e : Fin 16384) (h0 : 0 ≤ (lab (ix1 e)).toInt) (h1 : (lab (ix1 e)).toInt < 10000) :
    rowVal feat lab tab num e = sample feat lab cen num e := by
  have hs : ∀ d : Fin 512,
      ∑ k : Fin 10112, weight (lab (ix1 e)) k.val * tab (ix2 k d) = cen (ix2 (cls (lab (ix1 e))) d) := fun d => by
    rw [sum_weight_mul (N := 10112) (by norm_num) (lab (ix1 e)) ⟨(cls (lab (ix1 e))).val, by omega⟩
      (cls_word _ h0 h1) (fun k => tab (ix2 k d))]
    exact htab _ d
  unfold rowVal sample
  simp only [hs]

end Cert.CenterDist

end
-- ==== Proof.KernelBlock.lean ====
/-
  The kernel's body, one row of a block at a time.

  Row r of the block's result is the distance of the block's feature row from the matrix product's row, over the
  block's count entry. The product is (one-hot of the labels) × (the padded table): its entry (r, d) is the sum over the
  10112 classes k of the one-hot entry (r, k), which is the weight of class k for the label of row r (the class
  number k along the row against the label laid along the row, compared, widened, converted), times the table entry
  (k, d). The lane sum of the squared differences starts from 0 and runs over the 512 features.
-/
import proofs.«409294_j81123342287605_1_alg».proof.Proof.Gen.KernelIdeal.Skeleton
import proofs.«409294_j81123342287605_1_alg».proof.Proof.Sample
import Idealize.ShloMosaic.Lib.Pipeline.Value
import Idealize.ShloMosaic.Lib.ValueIdx
import Idealize.ShloMosaic.PureOps.Ideal.Laws

noncomputable section

open scoped BigOperators

namespace Cert.CenterDist.Kern

open Cert.KernelIdeal Cert.KernelIdeal.Gen
open Idealize.ShloMosaic Idealize.ShloMosaic.ValueIdx Cert.CenterDist

/-- The product's dimension numbers: rows of the left operand, columns of the right, one contracted axis. -/
abbrev prodDims := dot_S256x10112_S10112x512_S256x512_1_0_0_1_n_n

theorem lhs_row (j : S256x512.Idx) (k : prodDims.contr.Idx) : (prodDims.lhsIdx j k 0 : ℕ) = j 0 := by
  simp [DotDims.lhsIdx, prodDims, dot_S256x10112_S10112x512_S256x512_1_0_0_1_n_n]; rfl
theorem lhs_cls (j : S256x512.Idx) (k : prodDims.contr.Idx) : (prodDims.lhsIdx j k 1 : ℕ) = k ⟨0, by decide⟩ :=
  DotDims.lhsIdx_val_of_single (d := prodDims) (cl := 1) rfl j k
theorem rhs_cls (j : S256x512.Idx) (k : prodDims.contr.Idx) : (prodDims.rhsIdx j k 0 : ℕ) = k ⟨0, by decide⟩ :=
  DotDims.rhsIdx_val_of_single (d := prodDims) (cr := 0) rfl j k
theorem rhs_col (j : S256x512.Idx) (k : prodDims.contr.Idx) : (prodDims.rhsIdx j k 1 : ℕ) = j 1 := by
  simp [DotDims.rhsIdx, prodDims, dot_S256x10112_S10112x512_S256x512_1_0_0_1_n_n]; rfl

/-- THE PRODUCT AT (r, d): the sum over the classes of the left operand's (r, k) times the right operand's (k, d). -/
theorem prod_apply (A : FVec Ideal S256x10112 .bf16) (B : FVec Ideal S10112x512 .bf16) (r : Fin 256) (d : Fin 512) :
    matmul prodDims none A B (constant S256x512 .f32 0x00000000#32) (ix2 r d)
      = ∑ k : Fin 10112, A (ix2 r k) * B (ix2 k d) := by
  refine (Ideal.matmul_constant_zero_apply prodDims none A B (ix2 r d)).trans ?_
  rw [← Equiv.sum_comp (contrEquiv1 prodDims 10112 rfl rfl).symm]
  refine Finset.sum_congr rfl fun k _ => ?_
  congr 2
  · apply Shape.idx_ext₂
    · exact lhs_row _ _
    · exact (lhs_cls _ _).trans (contrEquiv1_symm_val prodDims 10112 rfl rfl k)
  · apply Shape.idx_ext₂
    · exact (rhs_cls _ _).trans (contrEquiv1_symm_val prodDims 10112 rfl rfl k)
    · exact rhs_col _ _

/-- THE ONE-HOT ENTRY (r, k) is the weight of class k for row r's label. -/
theorem onehot_apply (v0 : Vec Ideal S256 .i32) (r : Fin 256) (k : Fin 10112) :
    (truncf .bf16 (sitofp (F := Ideal) .f32 (extui 32 (cmpi .eq (iota .tc S256x10112 32 [1] iota_S256x10112_d1_w32)
        (broadcastTo S256x10112 (shapeCast S256x1 v0 shapeCasts_S256_S256x1) broadcasts_S256x1_S256x10112)) natLt_1_32))
        bitsLt_bf16_f32 : FVec Ideal S256x10112 .bf16) (ix2 r k)
      = weight (v0 (ix1 r)) k.val := by
  have hb : broadcastTo S256x10112 (shapeCast S256x1 v0 shapeCasts_S256_S256x1) broadcasts_S256x1_S256x10112 (ix2 r k)
      = v0 (ix1 r) := by
    rw [broadcastTo_apply _ broadcasts_S256x1_S256x10112 (ix2 r k) (ix2 r (0 : Fin 1))
        (fun a => by match a with | ⟨0, _⟩ => rfl | ⟨1, _⟩ => rfl),
      shapeCast_apply v0 shapeCasts_S256_S256x1 (ix2 r (0 : Fin 1)) (ix1 r)
        (by rw [Shape.rowMajor_val_one, Shape.rowMajor_val_two]; show r.val = r.val * 1 + 0; omega)]
  have hi : iota .tc S256x10112 32 [1] iota_S256x10112_d1_w32 (ix2 r k) = BitVec.ofNat 32 k.val :=
    iota_single_apply .tc S256x10112 32 1 iota_S256x10112_d1_w32 (ix2 r k)
  unfold weight
  rw [← hb, ← hi]
  rfl

/-- The product of the one-hot matrix with a table B at (r, d): the weighted sum of B's rows at column d. -/
theorem prod_onehot (v0 : Vec Ideal S256 .i32) (B : FVec Ideal S10112x512 .bf16) (r : Fin 256) (d : Fin 512) :
    matmul prodDims none
        (truncf .bf16 (sitofp (F := Ideal) .f32 (extui 32 (cmpi .eq (iota .tc S256x10112 32 [1] iota_S256x10112_d1_w32)
          (broadcastTo S256x10112 (shapeCast S256x1 v0 shapeCasts_S256_S256x1) broadcasts_S256x1_S256x10112)) natLt_1_32))
          bitsLt_bf16_f32 : FVec Ideal S256x10112 .bf16)
        B (constant S256x512 .f32 0x00000000#32) (ix2 r d)
      = ∑ k : Fin 10112, weight (v0 (ix1 r)) k.val * B (ix2 k d) :=
  (prod_apply _ B r d).trans (Finset.sum_congr rfl fun k _ => congrArg (· * B (ix2 k d)) (onehot_apply v0 r k))

/-- THE BODY'S RESULT AT ROW r. -/
theorem pay_apply (v0 : Vec Ideal S256 .i32) (v8 : FVec Ideal S10112x512 .bf16) (v11 : FVec Ideal S256x512 .f32)
    (v16 : FVec Ideal S256 .f32) (r : Fin 256) :
    k0_pay1 (F := Ideal) v0 v8 v11 v16 (ix1 r)
      = Ideal.div (Ideal.sqrt (∑ d : Fin 512,
          (v11 (ix2 r d) - ∑ k : Fin 10112, weight (v0 (ix1 r)) k.val * v8 (ix2 k d))
            * (v11 (ix2 r d) - ∑ k : Fin 10112, weight (v0 (ix1 r)) k.val * v8 (ix2 k d))))
        (v16 (ix1 r)) := by
  unfold k0_pay1
  dsimp only
  rw [shapeCast_self, shapeCast_self]
  show Ideal.div (Ideal.sqrt (multiReduction (F := Ideal) .add [1] S256 _ 0x00000000#32 reduces_S256x512_S256 (.inl rfl) rfl (ix1 r))) (v16 (ix1 r)) = _
  congr 2
  refine (Ideal.multiReduction_add_single _ 0x00000000#32 reduces_S256x512_S256 (.inl rfl) rfl (ix1 r)).trans ?_
  refine Finset.sum_congr rfl fun (d : Fin 512) _ => ?_
  have hl : reduces_S256x512_S256.lift (ix1 r) d = ix2 r d :=
    funext fun a => Fin.ext (by match a with | ⟨0, _⟩ => rfl | ⟨1, _⟩ => rfl)
  rw [hl]
  show (v11 (ix2 r d) - matmul prodDims none _ v8 (constant S256x512 .f32 0x00000000#32) (ix2 r d))
      * (v11 (ix2 r d) - matmul prodDims none _ v8 (constant S256x512 .f32 0x00000000#32) (ix2 r d)) = _
  rw [prod_onehot]

end Cert.CenterDist.Kern

end
-- ==== Proof.KernelArray.lean ====
/-
  From the kernel's blocks to its output array.

  Grid point t stages rows 256·t … 256·t + 255 of the features, of the labels and of the counts, and the whole padded
  table; what it writes back is rows 256·t … 256·t + 255 of ONE function of the arrays, `outArr`: at row e the distance
  of feature row e from the row the one-hot product selects, over the count of row e (`rowVal`). The 64 blocks of 256
  rows cover the 16384 rows (row e is in block e / 256), so after the region the output array is `outArr`.
-/
import proofs.«409294_j81123342287605_1_alg».proof.Proof.Gen.KernelIdeal.Frame
import proofs.«409294_j81123342287605_1_alg».proof.Proof.KernelBlock
import Idealize.ShloMosaic.Lib.Pipeline.Value

noncomputable section

open scoped BigOperators

namespace Cert.CenterDist.Kern

open Cert.KernelIdeal Cert.KernelIdeal.Gen
open Idealize.ShloMosaic Idealize.ShloMosaic.TcCoe Idealize.ShloMosaic.ValueIdx Idealize.SL.Sem Cert.CenterDist
open Idealize.ShloMosaic.Pipeline (Dat)

variable (m : (ℓ : Loc nD τ sig) → Buf (Elt Ideal) ℓ)

theorem zero1 : (![0] : Fin 1 → Nat) = fun _ => 0 := funext fun a => by fin_cases a <;> rfl
theorem zero2 : (![0, 0] : Fin 2 → Nat) = fun _ => 0 := funext fun a => by fin_cases a <;> rfl

/-- The four arrays the region reads, as it finds them. -/
abbrev featArr (c : Dev nD) : FVec Ideal S16384x512 .f32 := V m c main_arg0
abbrev labArr (c : Dev nD) : IVec S16384 32 := V m c main_arg1
abbrev numArr (c : Dev nD) : FVec Ideal S16384 .f32 := V m c main_v17
abbrev tabArr (c : Dev nD) : FVec Ideal S10112x512 .bf16 := V m c main_v1

/-- Their blocks at grid point t. -/
abbrev featBlk (c : Dev nD) (t : Fin cfg0.N) : FVec Ideal S256x512 .f32 := iblk m c 0 t
abbrev labBlk (c : Dev nD) (t : Fin cfg0.N) : Vec Ideal S256 .i32 := iblk m c 1 t
abbrev numBlk (c : Dev nD) (t : Fin cfg0.N) : FVec Ideal S256 .f32 := iblk m c 2 t
abbrev tabBlk (c : Dev nD) (t : Fin cfg0.N) : FVec Ideal S10112x512 .bf16 := iblk m c 3 t

theorem points : cfg0.N = 64 := N_0

/-- Row r of block t is row 256·t + r of the array. -/
def row (t : Fin cfg0.N) (r : Fin 256) : Fin 16384 :=
  ⟨t.val * 256 + r.val, by have := lt_of_lt_of_eq t.isLt points; have := r.isLt; omega⟩

/-- The block index maps, decided over the grid: the row-blocked windows are at block t, the table at block (0, 0). -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val
    ∧ win0_3.index t (0 : Fin 2) = 0 ∧ win0_3.index t (1 : Fin 2) = 0 ∧ win0_4.index t (0 : Fin 1) = t.val :=
  (by decide +kernel : ∀ t : Fin grid0.N, _)

theorem feat_blk (c : Dev nD) (t : Fin cfg0.N) (r : Fin 256) (d : Fin 512) :
    featBlk m c t (ix2 r d) = featArr m c (ix2 (row t r) d) := by
  show V m c main_arg0 (((cfg0.win 0).blk t).view.emb (ix2 r d)) = V m c main_arg0 (ix2 (row t r) d)
  obtain ⟨e0, e1, -⟩ := idx_facts t
  refine congrArg (V m c main_arg0) (funext fun a => Fin.ext ?_)
  match a with
  | ⟨0, _⟩ => show win0_0.index t (0 : Fin 2) * 256 + 1 * r.val = t.val * 256 + r.val; rw [e0]; omega
  | ⟨1, _⟩ => show win0_0.index t (1 : Fin 2) * 512 + 1 * d.val = d.val; rw [e1]; omega

theorem lab_blk (c : Dev nD) (t : Fin cfg0.N) (r : Fin 256) : labBlk m c t (ix1 r) = labArr m c (ix1 (row t r)) := by
  show V m c main_arg1 (((cfg0.win 1).blk t).view.emb (ix1 r)) = V m c main_arg1 (ix1 (row t r))
  obtain ⟨-, -, e2, -⟩ := idx_facts t
  refine congrArg (V m c main_arg1) (funext fun a => Fin.ext ?_)
  match a with
  | ⟨0, _⟩ => show win0_1.index t (0 : Fin 1) * 256 + 1 * r.val = t.val * 256 + r.val; rw [e2]; omega

theorem num_blk (c : Dev nD) (t : Fin cfg0.N) (r : Fin 256) : numBlk m c t (ix1 r) = numArr m c (ix1 (row t r)) := by
  show V m c main_v17 (((cfg0.win 2).blk t).view.emb (ix1 r)) = V m c main_v17 (ix1 (row t r))
  obtain ⟨-, -, -, e3, -⟩ := idx_facts t
  refine congrArg (V m c main_v17) (funext fun a => Fin.ext ?_)
  match a with
  | ⟨0, _⟩ => show win0_2.index t (0 : Fin 1) * 256 + 1 * r.val = t.val * 256 + r.val; rw [e3]; omega

theorem tab_blk (c : Dev nD) (t : Fin cfg0.N) (k : Fin 10112) (d : Fin 512) : tabBlk m c t (ix2 k d) = tabArr m c (ix2 k d) := by
  show V m c main_v1 (((cfg0.win 3).blk t).view.emb (ix2 k d)) = V m c main_v1 (ix2 k d)
  obtain ⟨-, -, -, -, e4, e5, -⟩ := idx_facts t
  refine congrArg (V m c main_v1) (funext fun a => Fin.ext ?_)
  match a with
  | ⟨0, _⟩ => show win0_3.index t (0 : Fin 2) * 10112 + 1 * k.val = k.val; rw [e4]; omega
  | ⟨1, _⟩ => show win0_3.index t (1 : Fin 2) * 512 + 1 * d.val = d.val; rw [e5]; omega

/-- THE OUTPUT ARRAY as one function of the arrays the region reads. -/
def outArr (c : Dev nD) : S16384.Idx → EReal :=
  fun i => rowVal (featArr m c) (labArr m c) (tabArr m c) (numArr m c) (i 0)

/-- Its value at row e. -/
theorem outArr_apply (c : Dev nD) (e : Fin 16384) :
    outArr m c (ix1 e) = rowVal (featArr m c) (labArr m c) (tabArr m c) (numArr m c) e := rfl

set_option maxRecDepth 65536 in
/-- WHAT POINT t WRITES BACK is block t of `outArr`. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero zero1]
  simp only [View.ld_unit_zero (S := S256) zero1, View.ld_unit_zero (S := S10112x512) zero2,
    View.ld_unit_zero (S := S256x512) zero2]
  funext j
  obtain ⟨r, rfl⟩ : ∃ r : Fin 256, j = ix1 r := ⟨j 0, eq_ix1 j⟩
  have hx : (win0 4).xinj (grid0.coords t) (ix1 r) = ix1 r :=
    funext fun a => Fin.ext (by match a with | ⟨0, _⟩ => rfl)
  have hemb : ((View.whole main_v18).slice ((win0 4).rect t)).emb (ix1 r) = ix1 (row t r) := funext fun a => Fin.ext (by
    match a with
    | ⟨0, _⟩ =>
      show win0_4.index t (0 : Fin 1) * 256 + 1 * r.val = t.val * 256 + r.val
      rw [(idx_facts t).2.2.2.2.2.2]; omega)
  refine ((congrArg (k0_pay1 (F := Ideal) (labBlk m c t) (tabBlk m c t) (featBlk m c t) (numBlk m c t)) hx).trans
    (pay_apply (labBlk m c t) (tabBlk m c t) (featBlk m c t) (numBlk m c t) r)).trans ?_
  rw [View.read_apply, cast_eq, hemb, outArr_apply]
  unfold rowVal
  rw [lab_blk m c t r, num_blk m c t r]
  simp only [feat_blk m c t r, tab_blk m c t]

/-- An index of the array is in point t's block iff its coordinate is in the block's range. -/
theorem mem_blk (t : Fin cfg0.N) (i : S16384.Idx) :
    i ∈ ((cfg0.win 4).blk t).view.set
      ↔ ∀ a : Fin 1, win0_4.index t a * S256.size a ≤ (i a).val ∧ (i a).val < win0_4.index t a * S256.size a + S256.size a := by
  show i ∈ ((View.whole main_v18).slice (win0_4.rect t)).set ↔ _
  rw [View.set_slice_whole, Rect.mem_set_unit]
  exact Iff.rfl

/-- Every row is in some flushing point's block: row e in block e / 256. -/
theorem cover (i : S16384.Idx) :
    ∃ t : Fin cfg0.N, (cfg0.win 4).flush t = true ∧ i ∈ ((cfg0.win 4).blk t).view.set := by
  have hi : (i 0).val < 16384 := (i 0).isLt
  refine ⟨⟨(i 0).val / 256, by rw [points]; omega⟩, flush0_4 _, ?_⟩
  rw [mem_blk]
  intro a
  match a with
  | ⟨0, _⟩ =>
    show win0_4.index _ (0 : Fin 1) * 256 ≤ (i 0).val ∧ (i 0).val < win0_4.index _ (0 : Fin 1) * 256 + 256
    rw [(idx_facts _).2.2.2.2.2.2]
    show (i 0).val / 256 * 256 ≤ (i 0).val ∧ (i 0).val < (i 0).val / 256 * 256 + 256
    omega

/-- THE OUTPUT ARRAY after the region. -/
theorem out_final (c : Dev nD) : (dats m 0 c).arrAt 4 cfg0.N = outArr m c :=
  (dats m 0 c).arrAt_eq_of_cover 4 (outArr m c) (fun t _ => flushed_eq m c t) cover

end Cert.CenterDist.Kern

end
-- ==== Proof.KernelHost.lean ====
/-
  The host operations around the kernel's region.

  Before the region the centers are padded with 112 rows of the constant 0 (an integer zero converted) and changed
  to the narrow format, which over the extended reals is the identity: row k < 10000 of the table the region finds is
  row k of the centers. After the region the per-sample array is summed from 0 and divided by 16384.
-/
import proofs.«409294_j81123342287605_1_alg».proof.Proof.Gen.KernelIdeal.Frame
import Idealize.ShloMosaic.Lib.StableHlo.Run
import Idealize.ShloMosaic.Lib.KernelVsHost
import Idealize.ShloMosaic.Lib.ValueIdx

noncomputable section

namespace Cert.CenterDist.KernHost

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The table the region finds: the centers padded below with the converted zero, in the narrow format. -/
theorem tab_eq (c : Dev nD) :
    (V m c main_v1 : S10112x512.Idx → EReal)
      = truncf (F := Ideal) .bf16 (pad S10112x512 ![0, 0] ![112, 0] ![0, 0] (m ((c : Thread nD τ).loc main_arg2))
          (sitofp (F := Ideal) .f32 (constantI S_ 32 0#32)) pads_S10000x512_S10112x512_01120_000 h_S_) bitsLt_bf16_f32 := by
  dsimp only [V, V0]
  simp only [hostOps0, hostOps0_1, hostOps0_2, List.flatten_cons, List.flatten_nil, List.append_nil, List.cons_append,
    List.nil_append]
  after_results
  rfl

/-- Its row k < 10000 is row k of the centers. -/
theorem tab_row (c : Dev nD) (k : Fin 10000) (d : Fin 512) :
    (V m c main_v1 : S10112x512.Idx → EReal) (ix2 ⟨k.val, by omega⟩ d) = m ((c : Thread nD τ).loc main_arg2) (ix2 k d) := by
  rw [tab_eq]
  show pad S10112x512 ![0, 0] ![112, 0] ![0, 0] (m ((c : Thread nD τ).loc main_arg2))
      (sitofp (F := Ideal) .f32 (constantI S_ 32 0#32)) pads_S10000x512_S10112x512_01120_000 h_S_ (ix2 ⟨k.val, by omega⟩ d) = _
  exact pad_apply_of_inside _ _ _ _ _ pads_S10000x512_S10112x512_01120_000 h_S_ _ (ix2 k d) (fun a => by
    match a with
    | ⟨0, _⟩ => show k.val = 0 + k.val * (0 + 1); omega
    | ⟨1, _⟩ => show d.val = 0 + d.val * (0 + 1); omega)

/-- The program's result from the output array the region leaves: its sum from 0, over 16384. -/
theorem tail_eq (c : Dev nD) :
    Pipeline.afterTail₀ cfgs (dats m) 0 (V0 m) [hostOps1] c main_v20
      = Host.divf (F := Ideal) (Host.reduceAdd (F := Ideal) ((dats m 0 c).arrAt 4 cfg0.N)
          (constant (F := Ideal) S_ .f32 0x00000000#32) reducesTo_S16384_S_d0 h_S_) (constant (F := Ideal) S_ .f32 0x46800000#32) := by
  unfold Pipeline.afterTail₀
  show StableHlo.after hostOps1 _ (Proc.devRef .tc main_v20) = _
  after_results
  rw [Pipeline.withArrays_arr spec0 launch0.win.arr_inj c _ _ 4]

end Cert.CenterDist.KernHost

end
-- ==== Proof.KernelRun.lean ====
/-
  The kernel program's run with its result named.

  Every weakly fair execution terminates with the result buffer at the sum from 0 of the per-sample array `outArr`
  over 16384, and the three arguments as they were: the output array after the region is `outArr`, the host
  operations after the region read it, and no operation writes an argument.
-/
import proofs.«409294_j81123342287605_1_alg».proof.Proof.KernelArray
import proofs.«409294_j81123342287605_1_alg».proof.Proof.KernelHost

noncomputable section

namespace Cert.CenterDist.Kern

open Cert.KernelIdeal Cert.KernelIdeal.Gen
open Idealize.ShloMosaic Idealize.ShloMosaic.TcCoe Idealize.ShloMosaic.ValueIdx Idealize.SL.Sem Cert.CenterDist

variable (m : (ℓ : Loc nD τ sig) → Buf (Elt Ideal) ℓ) (ρ : Dev nD → PrngReg)

/-- The loss as the host operations after the region compute it from a per-sample array. -/
def lossOf (x : FVec Ideal S16384 .f32) : FVec Ideal S_ .f32 :=
  Host.divf (F := Ideal) (Host.reduceAdd (F := Ideal) x (constant (F := Ideal) S_ .f32 0x00000000#32) reducesTo_S16384_S_d0 h_S_)
    (constant (F := Ideal) S_ .f32 0x46800000#32)

/-- THE KERNEL PROGRAM'S RUN: the result is the loss of `outArr`, the arguments are unchanged. -/
theorem run_value : θ_run defs (onTc (τ := τ) (main (F := Ideal))) ⟨m, fun _ => 0, ρ⟩ (fun r => ∀ c : Dev nD,
      r.2.mem ((c.tc : Thread nD τ).loc main_v20) = lossOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v20 (Pipeline.mem_restRefs_of main_v20 (by decide) (by decide))).trans
        (KernHost.tail_eq m c)).trans (congrArg lossOf (out_final m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩) (run_main m ρ)

end Cert.CenterDist.Kern

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.RefSample.lean ====
/-
  The reference, one sample at a time.

  The reference gathers the class row centers[idx] with idx the label after the wrap-around of negative indices, read
  signed and clamped; for a non-negative label the wrap-around changes nothing, so the row is centers[cls label]. The
  rest is read off operation by operation: the difference from the features, its square summed over the 512 features
  from 0, the square root, and the quotient by the label's count. That is the sample's share `sample`, with the count
  array the reference's own histogram term.
-/
import proofs.«409294_j81123342287605_1_alg».proof.Proof.Gen.ReferenceIdeal.Read
import proofs.«409294_j81123342287605_1_alg».proof.Proof.Sample
import proofs.«409294_j81123342287605_1_alg».proof.Proof.LibIndexing

noncomputable section

open scoped BigOperators

namespace Cert.CenterDist.Ref

open Cert.ReferenceIdeal Cert.ReferenceIdeal.Gen Cert.ReferenceIdeal.Read
open Idealize.ShloMosaic Idealize.ShloMosaic.ValueIdx Cert.CenterDist

/-- A row gather read at (e, j): the table's row at the start index, read signed and clamped, at column j. -/
theorem gather_row (x2 : FVec Ideal S10000x512 .f32) (idx : IVec S16384x1 32) (e : Fin 16384) (j : Fin 512) :
    Host.gather gather_S10000x512_S16384x1_S16384x512_1_0_n_n_0_1_1512 x2 idx (ix2 e j)
      = x2 (ix2 (cls (idx (ix2 e 0))) j) :=
  Cert.LibIndexing.gather_rows_apply (N := 10000) (D := 512) (E := 16384) (by decide)
    Cert.ReferenceIdeal.Gen.gather_S10000x512_S16384x1_S16384x512_1_0_n_n_0_1_1512_wf x2 idx e j

/-- The start index of sample e is its label, when the label is not negative. -/
theorem start_of_nonneg (x1 : (⟨S16384, .i32⟩ : BufTy).Contents (Elt Ideal)) (e : Fin 16384) (h0 : 0 ≤ (x1 (ix1 e)).toInt) :
    val_main_v5 (F := Ideal) x1 (ix2 e 0) = x1 (ix1 e) := by
  have he : idx_main_v5 (ix2 e (0 : Fin 1)) = ix1 e := funext fun a => Fin.ext (by match a with | ⟨0, _⟩ => rfl)
  rw [val_main_v5_apply, he, val_main_v4_apply, val_main_v1_apply, val_main_v3_apply]
  exact wrap_of_nonneg _ _ _ (by rw [val_main_v0_apply, val_main_c_apply]) h0

/-- THE REFERENCE'S PER-SAMPLE VALUE is the sample's share, over the reference's own count array. -/
theorem ref_sample (x0 : (⟨S16384x512, .f32⟩ : BufTy).Contents (Elt Ideal)) (x1 : (⟨S16384, .i32⟩ : BufTy).Contents (Elt Ideal))
    (x2 : (⟨S10000x512, .f32⟩ : BufTy).Contents (Elt Ideal)) (hr : ∀ e : Fin 16384, 0 ≤ (x1 (ix1 e)).toInt) (e : Fin 16384) :
    val_main_v27 (F := Ideal) x0 x1 x2 (ix1 e) = sample x0 x1 x2 (val_main_v22 (F := Ideal) x1) e := by
  rw [val_main_v27_apply, val_main_v26_apply, val_main_v25_apply, val_main_cst_6_apply]
  unfold sample
  rw [Ideal.hostDivf_def, Ideal.hostUnary_sqrt_def, Ideal.ofBits_def, Ideal.ofBits_zero_f32, zero_add]
  congr 2
  refine Finset.sum_congr rfl fun d _ => ?_
  have hi : idx_main_v25 (ix1 e) d = ix2 e d :=
    funext fun a => Fin.ext (by match a with | ⟨0, _⟩ => rfl | ⟨1, _⟩ => rfl)
  have hg : val_main_v6 (F := Ideal) x1 x2 (ix2 e d) = x2 (ix2 (cls (x1 (ix1 e))) d) := by
    unfold val_main_v6
    rw [gather_row, start_of_nonneg x1 e (hr e)]
  rw [hi, val_main_v24_apply, val_main_v23_apply, hg]
  rfl

end Cert.CenterDist.Ref

end
-- ==== Proof.LabelRange.lean ====
/-
  The precondition read back at one sample: every label is a class number, 0 ≤ label < 10000.

  The precondition is one bit, the conjunction of four "for all" tests; the last two are "every label is at least 0"
  and "every label is below 10000", signed. The bit being 1 gives each conjunct, each conjunct gives its comparison at
  every sample, and a signed comparison that holds says the inequality of the words read as integers.
-/
import proofs.«409294_j81123342287605_1_alg».proof.Pre_finite_inputs
import proofs.«409294_j81123342287605_1_alg».proof.Proof.Gen.Pre_finite_inputs
import Idealize.ShloMosaic.Lib.ReduceAll
import Idealize.ShloMosaic.Lib.ValueIdx
import Idealize.ShloMosaic.Lib.StableHlo.Predicate

noncomputable section

namespace Cert.CenterDist

open Idealize.ShloMosaic Idealize.ShloMosaic.ValueIdx

instance : Subsingleton (⟨0, ![]⟩ : Shape).Idx := ⟨fun a b => funext fun d => d.elim0⟩

/-- THE LABEL RANGE: where the precondition's bit is 1, the label of sample `e`, read as a signed integer, is in [0, 10000). -/
theorem label_range {F : FTy → Type} [FloatOps F] (a0 : FVec F ⟨2, ![16384, 512]⟩ .f32) (a1 : IVec ⟨1, ![16384]⟩ 32)
    (a2 : FVec F ⟨2, ![10000, 512]⟩ .f32)
    (h : Cert.Pre_finite_inputs.fn (F := F) a0 a1 a2 = fun _ => 1#1) (e : Fin 16384) :
    0 ≤ (a1 (ix1 e)).toInt ∧ (a1 (ix1 e)).toInt < 10000 := by
  have h0 := congrFun h ix0
  dsimp only [Cert.Pre_finite_inputs.fn, Cert.Pre_finite_inputs.fn_part1] at h0
  obtain ⟨h12, h15⟩ := IntOp.andi_eq_one.mp h0
  obtain ⟨-, h11⟩ := IntOp.andi_eq_one.mp h12
  have hge := Host.reduce_andi_all _ _ _ _ _ h11 (ix1 e)
  have hlt := Host.reduce_andi_all _ _ _ _ _ h15 (ix1 e)
  have hge' := IntOp.cmpi_sge.mp hge
  have hlt' := IntOp.cmpi_slt.mp hlt
  rw [StableHlo.Predicate.bcast_scalar _ Cert.Pre_finite_inputs.Facts.h_S_] at hge' hlt'
  exact ⟨hge', hlt'⟩

end Cert.CenterDist

end
-- ==== Proof.Bridge.lean ====
/-
  The two programs compute one loss.

  Both programs build the per-label counts by the same host operations on the labels (a histogram scattered from
  zeros, gathered back at the labels), so the count array the kernel's region finds is the reference's count term.
  With every label a class number, the kernel's per-sample array — the class row selected by a one-hot product from the
  padded table — is the reference's per-sample array — the class row gathered from the centers —, and both programs
  sum it from 0 and divide by 16384.
-/
import proofs.«409294_j81123342287605_1_alg».proof.Defs
import proofs.«409294_j81123342287605_1_alg».proof.Proof.KernelRun
import proofs.«409294_j81123342287605_1_alg».proof.Proof.RefSample
import proofs.«409294_j81123342287605_1_alg».proof.Proof.LabelRange

noncomputable section

namespace Cert.CenterDist.Bridge

open Cert.KernelIdeal Cert.KernelIdeal.Gen
open Idealize.ShloMosaic Idealize.ShloMosaic.TcCoe Idealize.ShloMosaic.ValueIdx Idealize.SL.Sem Cert.CenterDist
open Idealize.ShloMosaic.StableHlo

variable (m : (ℓ : Loc nD τ sig) → Buf (Elt Ideal) ℓ)

set_option maxHeartbeats 4000000 in
/-- The count array the region finds is the reference's count term of the labels. -/
theorem num_eq (c : Dev nD) :
    (V m c main_v17 : S16384.Idx → EReal)
      = Cert.ReferenceIdeal.Read.val_main_v22 (F := Ideal) (m ((c : Thread nD τ).loc main_arg1)) := by
  dsimp only [V, V0]
  simp only [hostOps0, hostOps0_1, hostOps0_2, List.flatten_cons, List.flatten_nil, List.append_nil, List.cons_append,
    List.nil_append]
  after_results
  rfl

/-- THE PER-SAMPLE ARRAYS AGREE where every label is a class number. -/
theorem out_eq_ref (c : Dev nD)
    (hr : ∀ e : Fin 16384, 0 ≤ (m ((c : Thread nD τ).loc main_arg1) (ix1 e)).toInt
      ∧ (m ((c : Thread nD τ).loc main_arg1) (ix1 e)).toInt < 10000) :
    Kern.outArr m c = Cert.ReferenceIdeal.Read.val_main_v27 (F := Ideal) (m ((c : Thread nD τ).loc main_arg0))
      (m ((c : Thread nD τ).loc main_arg1)) (m ((c : Thread nD τ).loc main_arg2)) := by
  funext i
  obtain ⟨e, rfl⟩ : ∃ e : Fin 16384, i = ix1 e := ⟨i 0, eq_ix1 i⟩
  rw [Ref.ref_sample _ _ _ (fun e => (hr e).1) e]
  show rowVal (V m c main_arg0) (V m c main_arg1) (V m c main_v1) (V m c main_v17) e = _
  rw [V_main_arg0 m c, V_main_arg1 m c, num_eq m c]
  exact rowVal_eq_sample _ _ _ _ _ (KernHost.tab_row m c) e (hr e).1 (hr e).2

/-- THE ALGEBRAIC CLAIM: from memories agreeing on the arguments both programs end with the reference's loss term. -/
theorem algebraic : Cert.algebraic_KernelIdeal_ReferenceIdeal := by
  intro m ρ m' ρ' hpre hagree
  have hr : ∀ (c : Dev nD) (e : Fin 16384), 0 ≤ (m ((c : Thread nD τ).loc main_arg1) (ix1 e)).toInt
      ∧ (m ((c : Thread nD τ).loc main_arg1) (ix1 e)).toInt < 10000 := fun c e => label_range _ _ _ (hpre c) e
  refine ⟨fun c => Cert.ReferenceIdeal.Read.val_main_v29 (F := Ideal) (m ((c : Thread nD τ).loc main_arg0))
    (m ((c : Thread nD τ).loc main_arg1)) (m ((c : Thread nD τ).loc main_arg2)), ?_, ?_⟩
  · refine (θ_run defs _ _).mono (fun r h c => ⟨(h c).1.trans ?_, (h c).2⟩) (Kern.run_value m ρ)
    rw [out_eq_ref m c (hr c)]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2]

end Cert.CenterDist.Bridge

end
-- ==== Proof.lean ====
/-
  The center-distance loss: mean over the 16384 samples of ‖feat[e] − centers[label[e]]‖₂ / count[label[e]].

  The kernel replaces the row lookup centers[label] by a product: the one-hot matrix of the labels against the
  centers padded to 10112 rows. Over the extended reals a one-hot row times a table is exactly the table's row at the
  label — every other term is 0 times an entry, which is 0 — provided the label is a class number, 0 ≤ label < 10000,
  which the precondition states; the reference's clamped lookup reads that same row there. The counts are computed by
  the same host operations in both programs, and the final sum over samples and division by 16384 are the same
  operations of the same per-sample array. So the two idealized programs end with one value.

  The three frames: the kernel's two (at the word level and at the ideal level) are the generated frame run of its one
  region; the reference's is its run with the result dropped. The idealization rewrote nothing, so it preserves the
  kernel trivially.
-/
import proofs.«409294_j81123342287605_1_alg».proof.Defs
import proofs.«409294_j81123342287605_1_alg».proof.Proof.Gen.Kernel
import proofs.«409294_j81123342287605_1_alg».proof.Proof.Gen.Kernel.Skeleton
import proofs.«409294_j81123342287605_1_alg».proof.Proof.Gen.Kernel.Launch
import proofs.«409294_j81123342287605_1_alg».proof.Proof.Gen.Kernel.Points
import proofs.«409294_j81123342287605_1_alg».proof.Proof.Gen.Kernel.Frame
import proofs.«409294_j81123342287605_1_alg».proof.Proof.Gen.KernelIdeal
import proofs.«409294_j81123342287605_1_alg».proof.Proof.Gen.KernelIdeal.Skeleton
import proofs.«409294_j81123342287605_1_alg».proof.Proof.Gen.KernelIdeal.Launch
import proofs.«409294_j81123342287605_1_alg».proof.Proof.Gen.KernelIdeal.Points
import proofs.«409294_j81123342287605_1_alg».proof.Proof.Gen.KernelIdeal.Frame
import proofs.«409294_j81123342287605_1_alg».proof.Proof.Gen.ReferenceIdeal
import proofs.«409294_j81123342287605_1_alg».proof.Proof.Gen.Pre_finite_inputs
import proofs.«409294_j81123342287605_1_alg».proof.Proof.Gen.ReferenceIdeal.Run
import proofs.«409294_j81123342287605_1_alg».proof.Proof.Gen.ReferenceIdeal.Read
import proofs.«409294_j81123342287605_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, Cert.CenterDist.Bridge.algebraic⟩

end Cert.Proof

end
